-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S512x4096 : Shape := ⟨2, ![512, 4096]⟩
abbrev S32x512 : Shape := ⟨2, ![32, 512]⟩
abbrev S32x4096 : Shape := ⟨2, ![32, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S8192x4096 .f32) (main_arg1 : IVec S512x4096 32) (main_arg2 : IVec S32x512 32) (main_arg3 : FVec F S32x4096 .f32) (main_arg4 : IVec S4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S32x4096 .f32 := Host.absf main_arg3
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg4 main_v9
  let main_c_3 : IVec S_ 1 := constantI S_ 1 1#1
  let main_v11 : IVec S_ 1 := (fun x v => Host.reduce IntOp.andi x v reducesTo_S4096_S_d0 h_S_) main_v10 main_c_3
  let main_v12 : IVec S_ 1 := andi main_v8 main_v11
  let main_c_4 : IVec S_ 32 := constantI S_ 32 32#32
  let main_v13 : IVec S4096 32 := broadcastInDim S4096 ![] bcast_S_S4096 main_c_4
  let main_v14 : IVec S4096 1 := cmpi .slt main_arg4 main_v13
  let main_c_5 : IVec S_ 1 := constantI S_ 1 1#1
  let main_v15 : IVec S_ 1 := (fun x v => Host.reduce IntOp.andi x v reducesTo_S4096_S_d0 h_S_) main_v14 main_c_5
  fn_part1 (F := F) main_v12 main_v15
-- ==== Kernel.lean ====
abbrev S8192x4096 : Shape := ⟨2, ![8192, 4096]⟩
abbrev S512x4096 : Shape := ⟨2, ![512, 4096]⟩
abbrev S32x512 : Shape := ⟨2, ![32, 512]⟩
abbrev S32x4096 : Shape := ⟨2, ![32, 4096]⟩
abbrev S4096 : Shape := ⟨1, ![4096]⟩
abbrev S8 : Shape := ⟨1, ![8]⟩
abbrev S_ : Shape := ⟨0, ![]⟩
abbrev S32x512x1 : Shape := ⟨3, ![32, 512, 1]⟩
abbrev S1x1x8 : Shape := ⟨3, ![1, 1, 8]⟩
abbrev S32x512x8 : Shape := ⟨3, ![32, 512, 8]⟩
abbrev S32x1x128 : Shape := ⟨3, ![32, 1, 128]⟩
abbrev S4096x4096 : Shape := ⟨2, ![4096, 4096]⟩
abbrev S16x4096 : Shape := ⟨2, ![16, 4096]⟩
abbrev S1x1x128 : Shape := ⟨3, ![1, 1, 128]⟩
abbrev S128x4096 : Shape := ⟨2, ![128, 4096]⟩
abbrev S1x8x1 : Shape := ⟨3, ![1, 8, 1]⟩
abbrev S16x1x4096 : Shape := ⟨3, ![16, 1, 4096]⟩
abbrev S16x8x4096 : Shape := ⟨3, ![16, 8, 4096]⟩
abbrev S1x128 : Shape := ⟨2, ![1, 128]⟩
abbrev S128x1 : Shape := ⟨2, ![128, 1]⟩
abbrev S128x32 : Shape := ⟨2, ![128, 32]⟩
abbrev S256x4096 : Shape := ⟨2, ![256, 4096]⟩
abbrev S4096x2048 : Shape := ⟨2, ![4096, 2048]⟩
abbrev S256x2048 : Shape := ⟨2, ![256, 2048]⟩

abbrev nBuf : Space → Nat
  | .hbm => 22
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S512x4096, .i32⟩
  | .hbm, ⟨2, _⟩ => ⟨S32x512, .i32⟩
  | .hbm, ⟨3, _⟩ => ⟨S32x4096, .f32⟩
  | .hbm, ⟨4, _⟩ => ⟨S4096, .i32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S32x512x1, .i32⟩
  | .hbm, ⟨10, _⟩ => ⟨S1x1x8, .i32⟩
  | .hbm, ⟨11, _⟩ => ⟨S32x512x8, .i32⟩
  | .hbm, ⟨12, _⟩ => ⟨S32x512x8, .i32⟩
  | .hbm, ⟨13, _⟩ => ⟨S32x512x8, .i32⟩
  | .hbm, ⟨14, _⟩ => ⟨S_, .i32⟩
  | .hbm, ⟨15, _⟩ => ⟨S32x512x8, .i32⟩
  | .hbm, ⟨16, _⟩ => ⟨S32x512x8, .i32⟩
  | .hbm, ⟨17, _⟩ => ⟨S32x4096, .i32⟩
  | .hbm, ⟨18, _⟩ => ⟨S32x4096, .f32⟩
  | .hbm, ⟨19, _⟩ => ⟨S32x1x128, .i32⟩
  | .hbm, ⟨20, _⟩ => ⟨S4096x4096, .bf16⟩
  | .hbm, ⟨21, _⟩ => ⟨S8192x4096, .f32⟩
  | .local _ .vmem, ⟨0, _⟩ => ⟨S16x4096, .i32⟩
  | .local _ .vmem, ⟨1, _⟩ => ⟨S16x4096, .i32⟩
  | .local _ .vmem, ⟨2, _⟩ => ⟨S32x4096, .f32⟩
  | .local _ .vmem, ⟨3, _⟩ => ⟨S32x4096, .f32⟩
  | .local _ .vmem, ⟨4, _⟩ => ⟨S1x1x128, .i32⟩
  | .local _ .vmem, ⟨5, _⟩ => ⟨S1x1x128, .i32⟩
  | .local _ .vmem, ⟨6, _⟩ => ⟨S128x4096, .bf16⟩
  | .local _ .vmem, ⟨7, _⟩ => ⟨S128x4096, .bf16⟩
  | .local _ .vmem, ⟨8, _⟩ => ⟨S256x4096, .f32⟩
  | .local _ .vmem, ⟨9, _⟩ => ⟨S256x4096, .f32⟩
  | .local _ .vmem, ⟨10, _⟩ => ⟨S4096x2048, .bf16⟩
  | .local _ .vmem, ⟨11, _⟩ => ⟨S256x2048, .f32⟩
  | .local _ .vmem, ⟨12, _⟩ => ⟨S256x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S4096x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bcast_S_S8 : S_.BroadcastsInDim S8 (![] : Fin 0 → Fin S8.rank)
  bcast_S32x512_S32x512x1_0_1 : S32x512.BroadcastsInDim S32x512x1 (![0, 1] : Fin 2 → Fin S32x512x1.rank)
  bcast_S8_S1x1x8_2 : S8.BroadcastsInDim S1x1x8 (![2] : Fin 1 → Fin S1x1x8.rank)
  bcast_S32x512x1_S32x512x8_0_1_2 : S32x512x1.BroadcastsInDim S32x512x8 (![0, 1, 2] : Fin 3 → Fin S32x512x8.rank)
  bcast_S1x1x8_S32x512x8_0_1_2 : S1x1x8.BroadcastsInDim S32x512x8 (![0, 1, 2] : Fin 3 → Fin S32x512x8.rank)
  bcast_S_S32x512x8 : S_.BroadcastsInDim S32x512x8 (![] : Fin 0 → Fin S32x512x8.rank)
  shapeCasts_S32x512x8_S32x4096 : S32x512x8.ShapeCasts S32x4096
  shapeCasts_S4096_S32x1x128 : S4096.ShapeCasts S32x1x128
  inb_S16x4096_S16x4096_0_0 : ∀ a, (![0, 0] : Fin 2 → Nat) a + S16x4096.size a ≤ S16x4096.size a
  h_S16x4096 : 0 < S16x4096.numel
  iota_S1x8x1_d1_w32 : S1x8x1.Iotas .tc 32 [1]
  shapeCasts_S16x4096_S16x1x4096 : S16x4096.ShapeCasts S16x1x4096
  broadcasts_S16x1x4096_S16x8x4096 : S16x1x4096.Broadcasts S16x8x4096
  broadcasts_S1x8x1_S16x8x4096 : S1x8x1.Broadcasts S16x8x4096
  shapeCasts_S16x8x4096_S128x4096 : S16x8x4096.ShapeCasts S128x4096
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  transposes_S1x128_p1_0_S128x1 : S1x128.Transposes [1, 0] S128x1
  iota_S128x32_d1_w32 : S128x32.Iotas .tc 32 [1]
  broadcasts_S128x1_S128x32 : S128x1.Broadcasts S128x32
  natLt_1_32 : 1 < 32
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  packedbf16_S128x4096_S128x4096_0_0 : (Rect.unit (s := S128x4096) ![0, 0] S128x4096.size inb_S128x4096_S128x4096_0_0).PackedRows (EltTy.packing .bf16)
  inb_S256x4096_S256x4096_0_0 : ∀ a, (![0, 0] : Fin 2 → Nat) a + S256x4096.size a ≤ S256x4096.size a
  h_S256x4096 : 0 < S256x4096.numel
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S256x2048_S256x2048_0_0 : ∀ a, (![0, 0] : Fin 2 → Nat) a + S256x2048.size a ≤ S256x2048.size a
  h_S256x2048 : 0 < S256x2048.numel
  dot_S128x32_S32x4096_S128x4096_1_0_0_1_n_n_wf : DotDims.WF S128x32 S32x4096 S128x4096 [1] [0] [0] [1] [] []
  dot_S256x4096_S4096x2048_S256x2048_1_0_0_1_n_n_wf : DotDims.WF S256x4096 S4096x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x4096.size a ≤ S512x4096.size a
  hwx0_0 : ∀ i : grid0.Coords, EltTy.bits .i32 = 32 ∨ (Rect.block (s := S512x4096) S16x4096.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x4096.size a ≤ S32x4096.size a
  hwx0_1 : ∀ i : grid0.Coords, EltTy.bits .f32 = 32 ∨ (Rect.block (s := S32x4096) S32x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x4096.size a ≤ S32x4096.size a
  hwx0_2 : ∀ i : grid0.Coords, EltTy.bits .f32 = 32 ∨ (Rect.block (s := S32x4096) S32x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S32x1x128.size a
  hwx0_3 : ∀ i : grid0.Coords, EltTy.bits .i32 = 32 ∨ (Rect.block (s := S32x1x128) S1x1x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S4096x4096.size a
  hwx0_4 : ∀ i : grid0.Coords, EltTy.bits .bf16 = 32 ∨ (Rect.block (s := S4096x4096) S128x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x2048.size a ≤ S4096x4096.size a
  hwx1_1 : ∀ i : grid1.Coords, EltTy.bits .bf16 = 32 ∨ (Rect.block (s := S4096x4096) S4096x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S8192x4096.size a
  hwx1_2 : ∀ i : grid1.Coords, EltTy.bits .f32 = 32 ∨ (Rect.block (s := S8192x4096) S256x2048.size (cc1_transform_2 i) (hinb1_2 i)).WholeWords (EltTy.packing .f32)

variable [Facts₀]

def dot_S128x32_S32x4096_S128x4096_1_0_0_1_n_n : DotDims S128x32 S32x4096 S128x4096 where
  lhsContracting := [1]
  rhsContracting := [0]
  lhsNonContracting := [0]
  rhsNonContracting := [1]
  lhsBatch := []
  rhsBatch := []
  wf := dot_S128x32_S32x4096_S128x4096_1_0_0_1_n_n_wf
def dot_S256x4096_S4096x2048_S256x2048_1_0_0_1_n_n : DotDims S256x4096 S4096x2048 S256x2048 where
  lhsContracting := [1]
  rhsContracting := [0]
  lhsNonContracting := [0]
  rhsNonContracting := [1]
  lhsBatch := []
  rhsBatch := []
  wf := dot_S256x4096_S4096x2048_S256x2048_1_0_0_1_n_n_wf

abbrev win0_0 : Pipeline.Window sig grid0 :=
  Pipeline.Window.ofSpec (Memref.whole main_arg1) S16x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S32x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S4096x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S256x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S512x4096 : Shape := ⟨2, ![512, 4096]⟩
abbrev S32x512 : Shape := ⟨2, ![32, 512]⟩
abbrev S32x4096 : Shape := ⟨2, ![32, 4096]⟩
abbrev S4096 : Shape := ⟨1, ![4096]⟩
abbrev S8 : Shape := ⟨1, ![8]⟩
abbrev S_ : Shape := ⟨0, ![]⟩
abbrev S512x1x4096 : Shape := ⟨3, ![512, 1, 4096]⟩
abbrev S1x8x1 : Shape := ⟨3, ![1, 8, 1]⟩
abbrev S512x8x4096 : Shape := ⟨3, ![512, 8, 4096]⟩
abbrev S4096x4096 : Shape := ⟨2, ![4096, 4096]⟩
abbrev S32x512x1 : Shape := ⟨3, ![32, 512, 1]⟩
abbrev S1x1x8 : Shape := ⟨3, ![1, 1, 8]⟩
abbrev S32x512x8 : Shape := ⟨3, ![32, 512, 8]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S512x4096, .i32⟩
  | .hbm, ⟨2, _⟩ => ⟨S32x512, .i32⟩
  | .hbm, ⟨3, _⟩ => ⟨S32x4096, .f32⟩
  | .hbm, ⟨4, _⟩ => ⟨S4096, .i32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S512x1x4096, .i32⟩
  | .hbm, ⟨10, _⟩ => ⟨S1x8x1, .i32⟩
  | .hbm, ⟨11, _⟩ => ⟨S512x8x4096, .i32⟩
  | .hbm, ⟨12, _⟩ => ⟨S512x8x4096, .i32⟩
  | .hbm, ⟨13, _⟩ => ⟨S512x8x4096, .i32⟩
  | .hbm, ⟨14, _⟩ => ⟨S_, .i32⟩
  | .hbm, ⟨15, _⟩ => ⟨S512x8x4096, .i32⟩
  | .hbm, ⟨16, _⟩ => ⟨S512x8x4096, .i32⟩
  | .hbm, ⟨17, _⟩ => ⟨S4096x4096, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S32x512x1, .i32⟩
  | .hbm, ⟨23, _⟩ => ⟨S1x1x8, .i32⟩
  | .hbm, ⟨24, _⟩ => ⟨S32x512x8, .i32⟩
  | .hbm, ⟨25, _⟩ => ⟨S32x512x8, .i32⟩
  | .hbm, ⟨26, _⟩ => ⟨S32x512x8, .i32⟩
  | .hbm, ⟨27, _⟩ => ⟨S_, .i32⟩
  | .hbm, ⟨28, _⟩ => ⟨S32x512x8, .i32⟩
  | .hbm, ⟨29, _⟩ => ⟨S32x512x8, .i32⟩
  | .hbm, ⟨30, _⟩ => ⟨S32x4096, .i32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S4096x1, .i32⟩
  | .hbm, ⟨39, _⟩ => ⟨S4096x4096, .i32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S4096x1, .i32⟩
  | .hbm, ⟨48, _⟩ => ⟨S4096x4096, .f32⟩
  | .hbm, ⟨49, _⟩ => ⟨S4096x4096, .i32⟩
  | .hbm, ⟨50, _⟩ => ⟨S4096x4096, .f32⟩
  | .hbm, ⟨51, _⟩ => ⟨S4096x4096, .f32⟩
  | .hbm, ⟨52, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x4096_S512x1x4096_0_2 : S512x4096.BroadcastsInDim S512x1x4096 (![0, 2] : Fin 2 → Fin S512x1x4096.rank)
  bcast_S8_S1x8x1_1 : S8.BroadcastsInDim S1x8x1 (![1] : Fin 1 → Fin S1x8x1.rank)
  bcast_S512x1x4096_S512x8x4096_0_1_2 : S512x1x4096.BroadcastsInDim S512x8x4096 (![0, 1, 2] : Fin 3 → Fin S512x8x4096.rank)
  bcast_S1x8x1_S512x8x4096_0_1_2 : S1x8x1.BroadcastsInDim S512x8x4096 (![0, 1, 2] : Fin 3 → Fin S512x8x4096.rank)
  bcast_S_S512x8x4096 : S_.BroadcastsInDim S512x8x4096 (![] : Fin 0 → Fin S512x8x4096.rank)
  shapeCasts_S512x8x4096_S4096x4096 : S512x8x4096.ShapeCasts S4096x4096
  bcast_S32x512_S32x512x1_0_1 : S32x512.BroadcastsInDim S32x512x1 (![0, 1] : Fin 2 → Fin S32x512x1.rank)
  bcast_S8_S1x1x8_2 : S8.BroadcastsInDim S1x1x8 (![2] : Fin 1 → Fin S1x1x8.rank)
  bcast_S32x512x1_S32x512x8_0_1_2 : S32x512x1.BroadcastsInDim S32x512x8 (![0, 1, 2] : Fin 3 → Fin S32x512x8.rank)
  bcast_S1x1x8_S32x512x8_0_1_2 : S1x1x8.BroadcastsInDim S32x512x8 (![0, 1, 2] : Fin 3 → Fin S32x512x8.rank)
  bcast_S_S32x512x8 : S_.BroadcastsInDim S32x512x8 (![] : Fin 0 → Fin S32x512x8.rank)
  shapeCasts_S32x512x8_S32x4096 : S32x512x8.ShapeCasts S32x4096
  bcast_S_S4096 : S_.BroadcastsInDim S4096 (![] : Fin 0 → Fin S4096.rank)
  bcast_S4096_S4096x1_0 : S4096.BroadcastsInDim S4096x1 (![0] : Fin 1 → Fin S4096x1.rank)
  gather_S32x4096_S4096x1_S4096x4096_1_0_n_n_0_1_14096_wf : GatherDims.WF S32x4096 S4096x1 S4096x4096 [1] [0] [] [0] [] 1 ![1, 4096]
  dot_S8192x4096_S4096x4096_S8192x4096_1_0_0_1_n_n_wf : DotDims.WF S8192x4096 S4096x4096 S8192x4096 [1] [0] [0] [1] [] []

variable [Facts₀]

def gather_S32x4096_S4096x1_S4096x4096_1_0_n_n_0_1_14096 : GatherDims S32x4096 S4096x1 S4096x4096 where
  offsetDims := [1]
  collapsedSliceDims := [0]
  operandBatchingDims := []
  startIndicesBatchingDims := []
  startIndexMap := [0]
  indexVectorDim := 1
  sliceSizes := ![1, 4096]
  wf := gather_S32x4096_S4096x1_S4096x4096_1_0_n_n_0_1_14096_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.IdsInRange.lean ====
/-
  What the precondition says of the group ids. Its last two conjuncts are "every id is at least 0" and "every id is
  below 32", each a reduction by `and` of a signed comparison against a constant. A 32-bit word whose signed value
  is in [0, 32) has unsigned value below 32. (The two finiteness conjuncts are not used: the two programs agree
  entry by entry over the extended reals without them.)
-/
import proofs.«430666_j3040836846053_2_alg».proof.Pre_finite_inputs
import Idealize.ShloMosaic.Lib.ReduceAll
import Idealize.ShloMosaic.Lib.ValueIdx

noncomputable section

namespace Cert.IdsInRange

open Cert.Pre_finite_inputs
open Idealize.ShloMosaic Idealize.ShloMosaic.ValueIdx

/-- A word at least 0 and below 32 as a signed integer is below 32 as an unsigned one. -/
theorem toNat_lt_of_signed (w : BitVec 32) (h0 : IntOp.cmpi .sge w 0#32 = 1#1) (h32 : IntOp.cmpi .slt w 32#32 = 1#1) :
    w.toNat < 32 := by
  have a0 : (0#32 : BitVec 32).sle w = true := by
    have : BitVec.ofBool ((0#32 : BitVec 32).sle w) = 1#1 := h0
    revert this; cases (0#32 : BitVec 32).sle w <;> simp
  have a32 : w.slt 32#32 = true := by
    have : BitVec.ofBool (w.slt 32#32) = 1#1 := h32
    revert this; cases w.slt 32#32 <;> simp
  rw [BitVec.sle, decide_eq_true_eq] at a0
  rw [BitVec.slt, decide_eq_true_eq] at a32
  have z : (0#32 : BitVec 32).toInt = 0 := by decide
  have t : (32#32 : BitVec 32).toInt = 32 := by decide
  rw [z] at a0
  rw [t] at a32
  have hw := w.isLt
  rw [BitVec.toInt_eq_toNat_cond] at a0 a32
  split at a0 <;> omega

instance : Subsingleton S_.Idx := ⟨fun a b => funext fun d => d.elim0⟩

/-- Under the precondition every group id is in [0, 32). -/
theorem ids_lt {F : FTy → Type} [FloatOps F] [Cert.Pre_finite_inputs.Facts]
    (a0 : FVec F S8192x4096 .f32) (a1 : IVec S512x4096 32) (a2 : IVec S32x512 32) (a3 : FVec F S32x4096 .f32)
    (a4 : IVec S4096 32) (h : fn (F := F) a0 a1 a2 a3 a4 = fun _ => 1#1) (k : Fin 4096) :
    (a4 (ix1 k)).toNat < 32 := by
  have h0 := congrFun h ix0
  dsimp only [fn, fn_part1] at h0
  obtain ⟨h1, hlt⟩ := IntOp.andi_eq_one.1 h0
  obtain ⟨_, hge⟩ := IntOp.andi_eq_one.1 h1
  have g0 := Host.reduce_andi_all _ _ _ _ ix0 hge (ix1 k)
  have g32 := Host.reduce_andi_all _ _ _ _ ix0 hlt (ix1 k)
  exact toNat_lt_of_signed _ g0 g32

end Cert.IdsInRange

end
-- ==== Proof.Boundaries.lean ====
/-
  What the two regions find in their arrays.

  Before the first region the host unpacks the zero points (the same eight-shift unpacking the reference writes),
  converts them to floats and reshapes the 4096 group ids to [32, 1, 128]; it writes none of the arguments. So the
  first region finds the packed weights and the scales as launched, the zero table as the converted unpacked zero
  points, and the ids reshaped. The second region finds the activations as launched and, in the weight array, what
  the first region left.
-/
import proofs.«430666_j3040836846053_2_alg».proof.Proof.Gen.KernelIdeal.Frame
import proofs.«430666_j3040836846053_2_alg».proof.Proof.Gen.ReferenceIdeal.Read
import Idealize.ShloMosaic.Lib.StableHlo.Run

set_option maxRecDepth 16384

noncomputable section

namespace Cert.KernelIdeal.Boundaries

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The first region finds the packed weights as launched. -/
theorem first_packed (c : Dev nD) : V1 m ρ c main_arg1 = m ((c : Thread nD τ).loc main_arg1) := by
  show StableHlo.after hostOps0 (W0 m ρ c) (Proc.devRef .tc main_arg1) = _
  after_results

/-- The first region finds the scales as launched. -/
theorem first_scales (c : Dev nD) : V1 m ρ c main_arg3 = m ((c : Thread nD τ).loc main_arg3) := by
  show StableHlo.after hostOps0 (W0 m ρ c) (Proc.devRef .tc main_arg3) = _
  after_results

/-- The first region finds, as its zero table, the unpacked zero points converted to floats. -/
theorem first_zeros (c : Dev nD) :
    (V1 m ρ c main_v11 : FVec Ideal S32x4096 .f32)
      = sitofp (F := Ideal) .f32 (Cert.ReferenceIdeal.Read.val_main_v21 (F := Ideal)
          (m ((c : Thread nD τ).loc main_arg2) : IVec S32x512 32)) := by
  show StableHlo.after hostOps0 (W0 m ρ c) (Proc.devRef .tc main_v11) = _
  after_results
  rfl

/-- The first region finds the group ids reshaped to [32, 1, 128]. -/
theorem first_ids (c : Dev nD) :
    (V1 m ρ c main_v12 : IVec S32x1x128 32)
      = shapeCast S32x1x128 (m ((c : Thread nD τ).loc main_arg4) : IVec S4096 32) shapeCasts_S4096_S32x1x128 := by
  show StableHlo.after hostOps0 (W0 m ρ c) (Proc.devRef .tc main_v12) = _
  after_results
  rfl

/-- The second region finds the activations as launched. -/
theorem second_acts (c : Dev nD) : V2 m ρ c main_arg0 = m ((c : Thread nD τ).loc main_arg0) := by
  show W2 m ρ c (Proc.devRef .tc main_arg0) = _
  rw [W2_of_ne m ρ c main_arg0 (by decide)]
  show StableHlo.after hostOps0 (W0 m ρ c) (Proc.devRef .tc main_arg0) = _
  after_results

/-- The second region finds, in the weight array, what the first region left. -/
theorem second_weights (c : Dev nD) : V2 m ρ c main_v13 = (dat0 (V1 m ρ) c).arrAt 4 cfg0.N :=
  W2_arr m ρ c 4

/-- The result array at the last boundary is what the second region left. -/
theorem last_result (c : Dev nD) : W3 m ρ c (Proc.devRef .tc main_v14) = (dat1 (V2 m ρ) c).arrAt 2 cfg1.N :=
  W3_arr m ρ c 2

end Cert.KernelIdeal.Boundaries

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.Fields.lean ====
/-
  The integer side of 4-bit weight unpacking, and the one-hot selection of a group's row.

  A packed 32-bit word holds eight 4-bit fields; field j is the word shifted right (arithmetically) by 4 j and masked
  with 15, so it lies in [0, 15] whatever the word's sign. The difference of two fields, taken in 32-bit integers,
  does not wrap, so its value as a real number is the difference of the two fields' values.

  A group id w selects row w of a 32-row table through the weights "1 if w = g else 0": when 0 ≤ w < 32 exactly one
  weight is one, and the weighted sum of the rows is the row itself. Over the extended reals zero times anything is
  zero and adding zeros changes nothing, so no finiteness of the table is needed.
-/
import Idealize.ShloMosaic.PureOps.Ideal
import Idealize.ShloMosaic.Lib.ValueIdx

noncomputable section

open scoped BigOperators

namespace Cert.Fields

open Idealize.ShloMosaic

/-- Field `j` of a packed word: the word shifted right by `4 j` bits, sign-extending, then masked to four bits. -/
def field (word : BitVec 32) (j : Fin 8) : BitVec 32 :=
  (word.sshiftRight' (BitVec.ofNat 32 j.val * 4#32)) &&& 15#32

/-- The shift amount `4 j` is below the word width. -/
theorem shift_lt (j : Fin 8) : (BitVec.ofNat 32 j.val * 4#32).toNat < 32 := by
  have hj := j.isLt
  rw [BitVec.toNat_mul, BitVec.toNat_ofNat]
  show (j.val % 2 ^ 32 * 4) % 2 ^ 32 < 32
  omega

/-- On every arithmetic unit, a right shift by `4 j` bits is the plain sign-extending shift (no unit meets its
    out-of-range corner at an amount below the width). -/
theorem shrsi_field (u : ArithUnit) (word : BitVec 32) (j : Fin 8) :
    IntOp.andi (IntOp.shrsi u word (IntOp.muli (BitVec.ofNat 32 j.val) 4#32)) 15#32 = field word j := by
  unfold IntOp.andi IntOp.shrsi IntOp.muli field
  rw [if_pos (shift_lt j)]

/-- A field is a small non-negative number. -/
theorem field_toNat_le (word : BitVec 32) (j : Fin 8) : (field word j).toNat ≤ 15 := by
  unfold field
  rw [BitVec.toNat_and]
  exact Nat.and_le_right

theorem field_toInt (word : BitVec 32) (j : Fin 8) : (field word j).toInt = ((field word j).toNat : ℤ) := by
  have h := field_toNat_le word j
  rw [BitVec.toInt_eq_toNat_cond]
  rw [if_pos (by omega)]

/-- The 32-bit difference of two fields does not wrap: its signed value is the difference of the fields' values. -/
theorem sub_fields_toInt (a b : BitVec 32) (i j : Fin 8) :
    (field a i - field b j).toInt = (field a i).toInt - (field b j).toInt := by
  have ha := field_toNat_le a i
  have hb := field_toNat_le b j
  rw [field_toInt, field_toInt, BitVec.toInt_sub, BitVec.toInt_eq_toNat_cond, BitVec.toInt_eq_toNat_cond,
    if_pos (by omega), if_pos (by omega)]
  have h1 : (((field a i).toNat : ℤ) - ((field b j).toNat : ℤ)) = (((field a i).toNat : ℤ) - ((field b j).toNat : ℤ)) := rfl
  rw [Int.bmod_eq_of_le (by omega) (by omega)]

/-- As extended reals: converting the integer difference of two fields is subtracting the two converted fields. -/
theorem sitofp_sub_fields (a b : BitVec 32) (i j : Fin 8) :
    FloatOps.sitofp (F := Ideal) .f32 (IntOp.subi (field a i) (field b j))
      = FloatOps.sitofp (F := Ideal) .f32 (field a i) - FloatOps.sitofp (F := Ideal) .f32 (field b j) := by
  show (((IntOp.subi (field a i) (field b j)).toInt : ℝ) : EReal) = (((field a i).toInt : ℝ) : EReal) - (((field b j).toInt : ℝ) : EReal)
  unfold IntOp.subi
  rw [sub_fields_toInt, Int.cast_sub, EReal.coe_sub]

/-- The weight with which group id `w` takes row `g`: one when `w = g`, else zero (the comparison's bit, widened
    and converted). -/
def hot (w : BitVec 32) (g : Fin 32) : EReal :=
  FloatOps.sitofp (F := Ideal) .f32 ((IntOp.cmpi .eq w (BitVec.ofNat 32 g.val)).setWidth 32)

theorem sitofp_bit_true : FloatOps.sitofp (F := Ideal) .f32 (BitVec.setWidth 32 (BitVec.ofBool true)) = 1 := by
  show ((((BitVec.setWidth 32 (BitVec.ofBool true)).toInt : ℤ) : ℝ) : EReal) = 1
  rw [show (BitVec.setWidth 32 (BitVec.ofBool true)).toInt = 1 by decide]
  simp

theorem sitofp_bit_false : FloatOps.sitofp (F := Ideal) .f32 (BitVec.setWidth 32 (BitVec.ofBool false)) = 0 := by
  show ((((BitVec.setWidth 32 (BitVec.ofBool false)).toInt : ℤ) : ℝ) : EReal) = 0
  rw [show (BitVec.setWidth 32 (BitVec.ofBool false)).toInt = 0 by decide]
  simp

theorem hot_self (g : Fin 32) : hot (BitVec.ofNat 32 g.val) g = 1 := by
  show FloatOps.sitofp (F := Ideal) .f32 (BitVec.setWidth 32 (BitVec.ofBool (BitVec.ofNat 32 g.val == BitVec.ofNat 32 g.val))) = 1
  rw [beq_self_eq_true]
  exact sitofp_bit_true

theorem hot_ne (g0 g : Fin 32) (h : g ≠ g0) : hot (BitVec.ofNat 32 g0.val) g = 0 := by
  have hne : ¬ BitVec.ofNat 32 g0.val = BitVec.ofNat 32 g.val := by
    intro e
    have := congrArg BitVec.toNat e
    rw [BitVec.toNat_ofNat, BitVec.toNat_ofNat] at this
    have h0 := g0.isLt; have h1 := g.isLt
    exact h (Fin.ext (by omega))
  show FloatOps.sitofp (F := Ideal) .f32 (BitVec.setWidth 32 (BitVec.ofBool (BitVec.ofNat 32 g0.val == BitVec.ofNat 32 g.val))) = 0
  rw [beq_eq_false_iff_ne.mpr hne]
  exact sitofp_bit_false

/-- One-hot selection: the weighted sum of the 32 rows' entries is the entry of the selected row. -/
theorem hot_sum (g0 : Fin 32) (row : Fin 32 → EReal) :
    ∑ g : Fin 32, hot (BitVec.ofNat 32 g0.val) g * row g = row g0 := by
  rw [Finset.sum_eq_single g0]
  · rw [hot_self, one_mul]
  · intro g _ hg
    rw [hot_ne g0 g hg, zero_mul]
  · intro h; exact absurd (Finset.mem_univ _) h

end Cert.Fields

end
-- ==== Proof.DequantEntry.lean ====
/-
  One grid point of the first region, at an entry of its [128, 4096] output block.

  Row r of the block is field r % 8 of packed word r / 8 (same column) of the point's 16-row slab of packed weights:
  the slab is laid along a new middle axis of eight shift amounts 0, 4, …, 28, shifted, masked and flattened back
  to 128 rows. The row's group id is entry r of the point's 128 ids (the id row is turned into a column and compared
  against the 32 group numbers). The entry is (field − Σ_g hot·zero[g, n]) · Σ_g hot·scale[g, n]; rounding it to a
  shorter float format changes nothing over the extended reals.
-/
import proofs.«430666_j3040836846053_2_alg».proof.Proof.Gen.KernelIdeal.Skeleton
import proofs.«430666_j3040836846053_2_alg».proof.Proof.LibPlainDot
import proofs.«430666_j3040836846053_2_alg».proof.Proof.Fields
import Idealize.ShloMosaic.Lib.Pipeline.Value
import Idealize.ShloMosaic.Lib.ValueIdx

noncomputable section

open scoped BigOperators

namespace Cert.KernelIdeal.Dequant

open Cert.KernelIdeal Cert.KernelIdeal.Gen Cert.Fields
open Idealize.ShloMosaic Idealize.ShloMosaic.ValueIdx

/-- The slab of packed words laid along the middle axis: entry (a, j, n) is word (a, n). -/
theorem slab_entry (v0 : IVec S16x4096 32) (hc : S16x4096.ShapeCasts S16x1x4096) (hb : S16x1x4096.Broadcasts S16x8x4096)
    (a : Fin 16) (j : Fin 8) (n : Fin 4096) :
    broadcastTo S16x8x4096 (shapeCast S16x1x4096 v0 hc) hb (ix3 a j n) = v0 (ix2 a n) := by
  rw [broadcastTo_apply _ hb (ix3 a j n) (ix3 a (0 : Fin 1) n) (fun x => by
    match x with
    | ⟨0, _⟩ => rfl
    | ⟨1, _⟩ => rfl
    | ⟨2, _⟩ => rfl)]
  exact shapeCast_apply v0 hc (ix3 a (0 : Fin 1) n) (ix2 a n) (by
    rw [Shape.rowMajor_val_two, Shape.rowMajor_val_three]
    show a.val * 4096 + n.val = (a.val * 1 + 0) * 4096 + n.val
    omega)

/-- The shift amounts laid along the other two axes: entry (a, j, n) is 4 j. -/
theorem shift_entry (hi : S1x8x1.Iotas .tc 32 [1]) (hb : S1x8x1.Broadcasts S16x8x4096)
    (a : Fin 16) (j : Fin 8) (n : Fin 4096) :
    broadcastTo S16x8x4096 (muli (iota .tc S1x8x1 32 [1] hi) (broadcast S1x8x1 4#32)) hb (ix3 a j n)
      = IntOp.muli (BitVec.ofNat 32 j.val) 4#32 := by
  rw [broadcastTo_apply _ hb (ix3 a j n) (ix3 (0 : Fin 1) j (0 : Fin 1)) (fun x => by
    match x with
    | ⟨0, _⟩ => rfl
    | ⟨1, _⟩ => rfl
    | ⟨2, _⟩ => rfl)]
  show IntOp.muli (iota .tc S1x8x1 32 [1] hi (ix3 (0 : Fin 1) j (0 : Fin 1))) 4#32 = _
  rw [iota_single_apply]

/-- The unpacked integer weights of the block: row r, column n is field r % 8 of word (r / 8, n). -/
theorem unpacked_entry (v0 : IVec S16x4096 32) (hc : S16x4096.ShapeCasts S16x1x4096) (hb : S16x1x4096.Broadcasts S16x8x4096)
    (hi : S1x8x1.Iotas .tc 32 [1]) (hb' : S1x8x1.Broadcasts S16x8x4096) (hc' : S16x8x4096.ShapeCasts S128x4096)
    (r : Fin 128) (n : Fin 4096) :
    shapeCast S128x4096 (andi (shrsi (broadcastTo S16x8x4096 (shapeCast S16x1x4096 v0 hc) hb)
        (broadcastTo S16x8x4096 (muli (iota .tc S1x8x1 32 [1] hi) (broadcast S1x8x1 4#32)) hb'))
        (broadcast S16x8x4096 15#32)) hc' (ix2 r n)
      = field (v0 (ix2 (⟨r.val / 8, by have := r.isLt; omega⟩ : Fin 16) n)) (⟨r.val % 8, by omega⟩ : Fin 8) := by
  rw [shapeCast_apply _ hc' (ix2 r n) (ix3 (⟨r.val / 8, by have := r.isLt; omega⟩ : Fin 16) (⟨r.val % 8, by omega⟩ : Fin 8) n) (by
    rw [Shape.rowMajor_val_two, Shape.rowMajor_val_three]
    show ((r.val / 8) * 8 + r.val % 8) * 4096 + n.val = r.val * 4096 + n.val
    omega)]
  show IntOp.andi (IntOp.shrsi .vector (broadcastTo S16x8x4096 (shapeCast S16x1x4096 v0 hc) hb (ix3 _ _ n))
      (broadcastTo S16x8x4096 (muli (iota .tc S1x8x1 32 [1] hi) (broadcast S1x8x1 4#32)) hb' (ix3 _ _ n))) 15#32 = _
  rw [slab_entry, shift_entry, shrsi_field]

/-- The one-hot comparison of the block: row r against group g compares the block's r-th group id with g. -/
theorem compare_entry (v12 : IVec S1x1x128 32) (hc : S1x1x128.ShapeCasts S1x128) (ht : S1x128.Transposes [1, 0] S128x1)
    (hb : S128x1.Broadcasts S128x32) (hi : S128x32.Iotas .tc 32 [1]) (r : Fin 128) (g : Fin 32) :
    cmpi .eq (broadcastTo S128x32 (transpose S128x1 [1, 0] (shapeCast S1x128 v12 hc) ht) hb) (iota .tc S128x32 32 [1] hi) (ix2 r g)
      = IntOp.cmpi .eq (v12 (ix3 (0 : Fin 1) (0 : Fin 1) r)) (BitVec.ofNat 32 g.val) := by
  show IntOp.cmpi .eq (broadcastTo S128x32 (transpose S128x1 [1, 0] (shapeCast S1x128 v12 hc) ht) hb (ix2 r g))
      (iota .tc S128x32 32 [1] hi (ix2 r g)) = _
  rw [iota_single_apply]
  rw [broadcastTo_apply _ hb (ix2 r g) (ix2 r (0 : Fin 1)) (fun x => by
    match x with
    | ⟨0, _⟩ => rfl
    | ⟨1, _⟩ => rfl)]
  rw [transpose_apply [1, 0] _ ht (ix2 r (0 : Fin 1)) (ix2 (0 : Fin 1) r) (fun b => by
    match b with
    | ⟨0, _⟩ => rfl
    | ⟨1, _⟩ => rfl)]
  rw [shapeCast_apply v12 hc (ix2 (0 : Fin 1) r) (ix3 (0 : Fin 1) (0 : Fin 1) r) (by
    rw [Shape.rowMajor_val_two, Shape.rowMajor_val_three]
    show (0 * 1 + 0) * 128 + r.val = 0 * 128 + r.val
    omega)]

/-- The point's arithmetic at entry (r, n) of its block. -/
theorem block_entry (v0 : Vec Ideal S16x4096 .i32) (v12 : Vec Ideal S1x1x128 .i32) (v20 : Vec Ideal S32x4096 .f32)
    (v22 : Vec Ideal S32x4096 .f32) (r : Fin 128) (n : Fin 4096) :
    k0_pay1 (F := Ideal) v0 v12 v20 v22 (ix2 r n)
      = (FloatOps.sitofp (F := Ideal) .f32 (field (v0 (ix2 (⟨r.val / 8, by have := r.isLt; omega⟩ : Fin 16) n)) (⟨r.val % 8, by omega⟩ : Fin 8))
          - ∑ g : Fin 32, hot (v12 (ix3 (0 : Fin 1) (0 : Fin 1) r)) g * v22 (ix2 g n))
        * ∑ g : Fin 32, hot (v12 (ix3 (0 : Fin 1) (0 : Fin 1) r)) g * v20 (ix2 g n) := by
  unfold k0_pay1
  simp only [matmul]
  rw [show dot_S128x32_S32x4096_S128x4096_1_0_0_1_n_n = DotDims.plain 128 32 4096 from rfl]
  show (FloatOps.sitofp (F := Ideal) .f32 (shapeCast S128x4096 _ _ (ix2 r n)) - FloatOps.matmul (DotDims.plain 128 32 4096) _ _ _ _ (ix2 r n))
      * FloatOps.matmul (DotDims.plain 128 32 4096) _ _ _ _ (ix2 r n) = _
  rw [unpacked_entry, Cert.LibPlainDot.matmul_plain_apply, Cert.LibPlainDot.matmul_plain_apply, shapeCast_self]
  refine congrArg₂ (· * ·) (congrArg₂ (· - ·) rfl ?_) ?_
  · refine Finset.sum_congr rfl fun g _ => congrArg₂ (· * ·) ?_ rfl
    show FloatOps.sitofp (F := Ideal) .f32 ((cmpi .eq _ _ (ix2 r g)).setWidth 32) = _
    rw [compare_entry]; rfl
  · refine Finset.sum_congr rfl fun g _ => congrArg₂ (· * ·) ?_ rfl
    show FloatOps.sitofp (F := Ideal) .f32 ((cmpi .eq _ _ (ix2 r g)).setWidth 32) = _
    rw [compare_entry]; rfl

end Cert.KernelIdeal.Dequant

end
-- ==== Proof.DequantRegion.lean ====
/-
  The first region: grid point t turns 16 rows of packed words, the two 32-row tables and 128 group ids into rows
  128 t … 128 t + 127 of the dequantized weights. Row k of the whole [4096, 4096] weight array is therefore
  field k % 8 of packed row k / 8, less the selected zero-point row, times the selected scale row, the selection made
  by group id number k; the 32 blocks tile the array, so this is the array the region leaves.
-/
import proofs.«430666_j3040836846053_2_alg».proof.Proof.Gen.KernelIdeal.Frame
import proofs.«430666_j3040836846053_2_alg».proof.Proof.DequantEntry
import Idealize.ShloMosaic.Lib.Pipeline.Value
import Idealize.ShloMosaic.Lib.ValueIdx

set_option maxRecDepth 16384

noncomputable section

open scoped BigOperators

namespace Cert.KernelIdeal.Dequant

open Cert.KernelIdeal Cert.KernelIdeal.Gen Cert.Fields
open Idealize.ShloMosaic Idealize.ShloMosaic.TcCoe Idealize.SL.Sem Idealize.ShloMosaic.ValueIdx
open Idealize.ShloMosaic.Pipeline (Dat)

/-- The dequantized weight at row k, column n: the row's 4-bit field of the packed words, less the zero point and
    times the scale of the group the row's id selects (ids as a [32, 1, 128] array: id number k is entry
    (k / 128, 0, k % 128)). -/
def weightAt (qw : S512x4096.Idx → BitVec 32) (sc zr : S32x4096.Idx → EReal) (gid : S32x1x128.Idx → BitVec 32)
    (k : Fin 4096) (n : Fin 4096) : EReal :=
  (FloatOps.sitofp (F := Ideal) .f32 (field (qw (ix2 (⟨k.val / 8, by have := k.isLt; omega⟩ : Fin 512) n)) (⟨k.val % 8, by omega⟩ : Fin 8))
      - ∑ g : Fin 32, hot (gid (ix3 (⟨k.val / 128, by have := k.isLt; omega⟩ : Fin 32) (0 : Fin 1) (⟨k.val % 128, by omega⟩ : Fin 128))) g * zr (ix2 g n))
    * ∑ g : Fin 32, hot (gid (ix3 (⟨k.val / 128, by have := k.isLt; omega⟩ : Fin 32) (0 : Fin 1) (⟨k.val % 128, by omega⟩ : Fin 128))) g * sc (ix2 g n)

/-- The whole weight array. -/
def weights (qw : S512x4096.Idx → BitVec 32) (sc zr : S32x4096.Idx → EReal) (gid : S32x1x128.Idx → BitVec 32) :
    S4096x4096.Idx → EReal :=
  fun i => weightAt qw sc zr gid ⟨(i 0).val, idx2_lt0 i⟩ ⟨(i 1).val, idx2_lt1 i⟩

theorem weights_apply (qw : S512x4096.Idx → BitVec 32) (sc zr : S32x4096.Idx → EReal) (gid : S32x1x128.Idx → BitVec 32)
    (i : S4096x4096.Idx) (k n : Fin 4096) (hk : (i 0).val = k.val) (hn : (i 1).val = n.val) :
    weights qw sc zr gid i = weightAt qw sc zr gid k n := by
  obtain rfl : (⟨(i 0).val, idx2_lt0 i⟩ : Fin 4096) = k := Fin.ext hk
  obtain rfl : (⟨(i 1).val, idx2_lt1 i⟩ : Fin 4096) = n := Fin.ext hn
  rfl

theorem zero_off2 : (![0, 0] : Fin 2 → Nat) = fun _ => 0 := funext fun a => by fin_cases a <;> rfl
theorem zero_off3 : (![0, 0, 0] : Fin 3 → Nat) = fun _ => 0 := funext fun a => by fin_cases a <;> rfl

variable (V : (c : Dev nD) → (b : Ref sig .tc) → Buf (Elt Ideal) ((c : Thread nD τ).loc b))

/-- The printed index maps, decided over the 32 grid points: the packed slab and the id row move with the output's
    row block; the two tables are fetched whole; the output's blocks are the 32 row blocks. -/
theorem idx_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = win0_4.index t (0 : Fin 2)
    ∧ win0_3.index t (1 : Fin 3) = 0 ∧ win0_3.index t (2 : Fin 3) = 0
    ∧ win0_4.index t (0 : Fin 2) ≤ 31 ∧ win0_4.index t (1 : Fin 2) = 0 :=
  (by decide +kernel : ∀ t : Fin grid0.N, _)

/-- Every row block is some point's output block. -/
theorem idx_onto : ∀ q0 : Fin 32, ∃ t : Fin cfg0.N, win0_4.index t = ![q0.val, 0] :=
  (by decide +kernel : ∀ q0 : Fin 32, ∃ t : Fin grid0.N, win0_4.index t = ![q0.val, 0])

/-- What point `t` writes back is block `t` of the whole weight array of the four arrays the region finds. -/
theorem flushed_eq (c : Dev nD) (t : Fin cfg0.N) :
    (dat0 V c).flushed 4 t
      = ((cfg0.win 4).blk t).view.read (Elt Ideal)
          (weights (V c main_arg1) (V c main_arg3) (V c main_v11) (V c main_v12)) := by
  show (cfg0.win 4).cut (grid0.coords t) ((dat0 V c).after 4 t) = _
  rw [after0_4]
  unfold out0_4
  rw [View.canon_unit_zero zero_off2]
  simp only [View.ld_unit_zero (S := S16x4096) zero_off2, View.ld_unit_zero (S := S32x4096) zero_off2,
    View.ld_unit_zero (S := S1x1x128) zero_off3]
  obtain ⟨e0, e1, e2, e3, e4, e5, e6, e7, e8, e9, e10⟩ := idx_facts t
  funext j
  obtain ⟨r, n, rfl⟩ : ∃ (r : Fin 128) (n : Fin 4096), j = ix2 r n := ⟨j 0, j 1, eq_ix2 j⟩
  refine (block_entry (iblk0 V c 0 t) (iblk0 V c 3 t) (iblk0 V c 1 t) (iblk0 V c 2 t) r n).trans ?_
  show _ = weights (V c main_arg1) (V c main_arg3) (V c main_v11) (V c main_v12) (((cfg0.win 4).blk t).view.emb (ix2 r n))
  have hr := r.isLt
  rw [weights_apply _ _ _ _ _ (⟨win0_4.index t (0 : Fin 2) * 128 + r.val, by omega⟩ : Fin 4096) n
    (by show win0_4.index t (0 : Fin 2) * 128 + 1 * r.val = win0_4.index t (0 : Fin 2) * 128 + r.val; omega)
    (by show win0_4.index t (1 : Fin 2) * 4096 + 1 * n.val = n.val; omega)]
  unfold weightAt
  have hW : iblk0 V c 0 t (ix2 (⟨r.val / 8, by omega⟩ : Fin 16) n)
      = V c main_arg1 (ix2 (⟨(win0_4.index t (0 : Fin 2) * 128 + r.val) / 8, by omega⟩ : Fin 512) n) := by
    show V c main_arg1 (((cfg0.win 0).blk t).view.emb (ix2 (⟨r.val / 8, by omega⟩ : Fin 16) n)) = _
    refine congrArg (V c main_arg1) (funext fun a => Fin.ext ?_)
    match a with
    | ⟨0, _⟩ =>
      show win0_0.index t (0 : Fin 2) * 16 + 1 * (r.val / 8) = (win0_4.index t (0 : Fin 2) * 128 + r.val) / 8
      omega
    | ⟨1, _⟩ =>
      show win0_0.index t (1 : Fin 2) * 4096 + 1 * n.val = n.val
      omega
  have hJ : (⟨r.val % 8, by omega⟩ : Fin 8) = ⟨(win0_4.index t (0 : Fin 2) * 128 + r.val) % 8, by omega⟩ := Fin.ext (by
    show r.val % 8 = (win0_4.index t (0 : Fin 2) * 128 + r.val) % 8
    omega)
  have hG : iblk0 V c 3 t (ix3 (0 : Fin 1) (0 : Fin 1) r)
      = V c main_v12 (ix3 (⟨(win0_4.index t (0 : Fin 2) * 128 + r.val) / 128, by omega⟩ : Fin 32) (0 : Fin 1)
          (⟨(win0_4.index t (0 : Fin 2) * 128 + r.val) % 128, by omega⟩ : Fin 128)) := by
    show V c main_v12 (((cfg0.win 3).blk t).view.emb (ix3 (0 : Fin 1) (0 : Fin 1) r)) = _
    refine congrArg (V c main_v12) (funext fun a => Fin.ext ?_)
    match a with
    | ⟨0, _⟩ =>
      show win0_3.index t (0 : Fin 3) * 1 + 1 * 0 = (win0_4.index t (0 : Fin 2) * 128 + r.val) / 128
      omega
    | ⟨1, _⟩ =>
      show win0_3.index t (1 : Fin 3) * 1 + 1 * 0 = 0
      omega
    | ⟨2, _⟩ =>
      show win0_3.index t (2 : Fin 3) * 128 + 1 * r.val = (win0_4.index t (0 : Fin 2) * 128 + r.val) % 128
      omega
  have hS : ∀ g : Fin 32, iblk0 V c 1 t (ix2 g n) = V c main_arg3 (ix2 g n) := fun g => by
    show V c main_arg3 (((cfg0.win 1).blk t).view.emb (ix2 g n)) = _
    refine congrArg (V c main_arg3) (funext fun a => Fin.ext ?_)
    match a with
    | ⟨0, _⟩ => show win0_1.index t (0 : Fin 2) * 32 + 1 * g.val = g.val; omega
    | ⟨1, _⟩ => show win0_1.index t (1 : Fin 2) * 4096 + 1 * n.val = n.val; omega
  have hZ : ∀ g : Fin 32, iblk0 V c 2 t (ix2 g n) = V c main_v11 (ix2 g n) := fun g => by
    show V c main_v11 (((cfg0.win 2).blk t).view.emb (ix2 g n)) = _
    refine congrArg (V c main_v11) (funext fun a => Fin.ext ?_)
    match a with
    | ⟨0, _⟩ => show win0_2.index t (0 : Fin 2) * 32 + 1 * g.val = g.val; omega
    | ⟨1, _⟩ => show win0_2.index t (1 : Fin 2) * 4096 + 1 * n.val = n.val; omega
  rw [hW, hJ, hG]
  simp only [hS, hZ]

/-- An index of the weight array is in point `t`'s block iff each coordinate is in the block's range. -/
theorem mem_blk (t : Fin cfg0.N) (i : S4096x4096.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v13).slice (win0_4.rect t)).set ↔ _
  rw [View.set_slice_whole, Rect.mem_set_unit]
  exact Iff.rfl

/-- The 32 row blocks tile the weight array: row k lies in block k / 128. -/
theorem cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := idx_onto ⟨(i 0).val / 128, by omega⟩
  have q0 : win0_4.index t (0 : Fin 2) = (i 0).val / 128 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 4096 ≤ (i 1).val ∧ (i 1).val < win0_4.index t (1 : Fin 2) * 4096 + 4096; omega

/-- The array the first region leaves: the dequantized weights of the four arrays it finds. -/
theorem final (c : Dev nD) :
    (dat0 V c).arrAt 4 cfg0.N = weights (V c main_arg1) (V c main_arg3) (V c main_v11) (V c main_v12) :=
  (dat0 V c).arrAt_eq_of_cover 4 (weights (V c main_arg1) (V c main_arg3) (V c main_v11) (V c main_v12))
    (fun t _ => flushed_eq V c t) cover

end Cert.KernelIdeal.Dequant

end
-- ==== Proof.ProductRegion.lean ====
/-
  The second region: every grid point multiplies a 256-row band of the activations by a 2048-column half of the
  weights, over the whole contracted axis of 4096. The point's output block is block (band, half) of the one
  whole-array product "rows of A times columns of B"; the 64 blocks tile the [8192, 4096] output, so the array the
  region leaves is that product of the two arrays the region finds.
-/
import proofs.«430666_j3040836846053_2_alg».proof.Proof.Gen.KernelIdeal.Frame
import proofs.«430666_j3040836846053_2_alg».proof.Proof.LibPlainDot
import Idealize.ShloMosaic.Lib.Pipeline.Value
import Idealize.ShloMosaic.Lib.ValueIdx

set_option maxRecDepth 16384

noncomputable section

open scoped BigOperators

namespace Cert.KernelIdeal.Product

open Cert.KernelIdeal Cert.KernelIdeal.Gen
open Idealize.ShloMosaic Idealize.ShloMosaic.TcCoe Idealize.SL.Sem Idealize.ShloMosaic.ValueIdx
open Idealize.ShloMosaic.Pipeline (Dat)

/-- Rows of `A` times columns of `B`, entry by entry, over the extended reals. -/
def rowsByCols (A : S8192x4096.Idx → EReal) (B : S4096x4096.Idx → EReal) : S8192x4096.Idx → EReal :=
  fun i => ∑ k : Fin 4096, A (ix2 (⟨(i 0).val, idx2_lt0 i⟩ : Fin 8192) k) * B (ix2 k (⟨(i 1).val, idx2_lt1 i⟩ : Fin 4096))

theorem zero_off : (![0, 0] : Fin 2 → Nat) = fun _ => 0 := funext fun a => by fin_cases a <;> rfl

/-- One point's arithmetic at an entry of its block: the band's row against the half's column. Rounding the
    activations to a shorter float format changes nothing over the extended reals. -/
theorem block_entry (x0 : Vec Ideal S256x4096 .f32) (x1 : Vec Ideal S4096x2048 .bf16) (p : Fin 256) (q : Fin 2048) :
    k1_pay1 (F := Ideal) x0 x1 (ix2 p q) = ∑ k : Fin 4096, x0 (ix2 p k) * x1 (ix2 k q) := by
  unfold k1_pay1
  simp only [matmul]
  rw [show dot_S256x4096_S4096x2048_S256x2048_1_0_0_1_n_n = DotDims.plain 256 4096 2048 from rfl]
  rw [Cert.LibPlainDot.matmul_plain_apply, shapeCast_self]
  rfl

variable (V : (c : Dev nD) → (b : Ref sig .tc) → Buf (Elt Ideal) ((c : Thread nD τ).loc b))

/-- The printed index maps, decided over the 64 grid points: the activations' band is the output's band and spans
    the whole contracted axis; the weights' half is the output's half and spans the whole contracted axis; the
    output's block indices stay in their ranges. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = win1_2.index t (1 : Fin 2)
    ∧ win1_2.index t (0 : Fin 2) ≤ 31 ∧ win1_2.index t (1 : Fin 2) ≤ 1 :=
  (by decide +kernel : ∀ t : Fin grid1.N, _)

/-- Every (band, half) pair is some point's output block. -/
theorem idx_onto : ∀ (q0 : Fin 32) (q1 : Fin 2), ∃ t : Fin cfg1.N, win1_2.index t = ![q0.val, q1.val] :=
  (by decide +kernel : ∀ (q0 : Fin 32) (q1 : Fin 2), ∃ t : Fin grid1.N, win1_2.index t = ![q0.val, q1.val])

/-- What point `t` writes back is block `t` of the whole-array product of the two arrays the region finds. -/
theorem flushed_eq (c : Dev nD) (t : Fin cfg1.N) :
    (dat1 V c).flushed 2 t
      = ((cfg1.win 2).blk t).view.read (Elt Ideal) (rowsByCols (V c main_arg0) (V c main_v13)) := by
  show (cfg1.win 2).cut (grid1.coords t) ((dat1 V c).after 2 t) = _
  rw [after1_2]
  unfold out1_2
  rw [View.canon_unit_zero zero_off]
  simp only [View.ld_unit_zero (S := S256x4096) zero_off, View.ld_unit_zero (S := S4096x2048) zero_off]
  obtain ⟨e0, e1, e2, e3, e4, e5⟩ := idx_facts t
  funext j
  obtain ⟨p, q, rfl⟩ : ∃ (p : Fin 256) (q : Fin 2048), j = ix2 p q := ⟨j 0, j 1, eq_ix2 j⟩
  refine (block_entry (iblk1 V c 0 t) (iblk1 V c 1 t) p q).trans ?_
  show _ = rowsByCols (V c main_arg0) (V c main_v13) (((cfg1.win 2).blk t).view.emb (ix2 p q))
  unfold rowsByCols
  refine Finset.sum_congr rfl fun k _ => ?_
  have hA : iblk1 V c 0 t (ix2 p k) = V c main_arg0 (ix2 (⟨((((cfg1.win 2).blk t).view.emb (ix2 p q)) 0).val, idx2_lt0 _⟩ : Fin 8192) k) := by
    show V c main_arg0 (((cfg1.win 0).blk t).view.emb (ix2 p k)) = _
    refine congrArg (V c main_arg0) (funext fun a => Fin.ext ?_)
    match a with
    | ⟨0, _⟩ =>
      show win1_0.index t (0 : Fin 2) * 256 + 1 * p.val = win1_2.index t (0 : Fin 2) * 256 + 1 * p.val
      omega
    | ⟨1, _⟩ =>
      show win1_0.index t (1 : Fin 2) * 4096 + 1 * k.val = k.val
      omega
  have hB : iblk1 V c 1 t (ix2 k q) = V c main_v13 (ix2 k (⟨((((cfg1.win 2).blk t).view.emb (ix2 p q)) 1).val, idx2_lt1 _⟩ : Fin 4096)) := by
    show V c main_v13 (((cfg1.win 1).blk t).view.emb (ix2 k q)) = _
    refine congrArg (V c main_v13) (funext fun a => Fin.ext ?_)
    match a with
    | ⟨0, _⟩ =>
      show win1_1.index t (0 : Fin 2) * 4096 + 1 * k.val = k.val
      omega
    | ⟨1, _⟩ =>
      show win1_1.index t (1 : Fin 2) * 2048 + 1 * q.val = win1_2.index t (1 : Fin 2) * 2048 + 1 * q.val
      omega
  rw [hA, hB]

/-- An index of the output array is in point `t`'s block iff each coordinate is in the block's range. -/
theorem mem_blk (t : Fin cfg1.N) (i : S8192x4096.Idx) :
    i ∈ ((cfg1.win 2).blk t).view.set ↔ ∀ a : Fin 2, win1_2.index t a * S256x2048.size a ≤ (i a).val ∧ (i a).val < win1_2.index t a * S256x2048.size a + S256x2048.size a := by
  show i ∈ ((View.whole main_v14).slice (win1_2.rect t)).set ↔ _
  rw [View.set_slice_whole, Rect.mem_set_unit]
  exact Iff.rfl

/-- The 64 blocks tile the output: entry (r, n) lies in the block of band r / 256 and half n / 2048. -/
theorem cover (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, ht⟩ := idx_onto ⟨(i 0).val / 256, by omega⟩ ⟨(i 1).val / 2048, by omega⟩
  have q0 : win1_2.index t (0 : Fin 2) = (i 0).val / 256 := congrFun ht 0
  have q1 : win1_2.index t (1 : Fin 2) = (i 1).val / 2048 := congrFun ht 1
  refine ⟨t, flush1_2 t, ?_⟩
  rw [mem_blk]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 2048 ≤ (i 1).val ∧ (i 1).val < win1_2.index t (1 : Fin 2) * 2048 + 2048; omega

/-- The array the second region leaves: rows of the activations it finds times columns of the weights it finds. -/
theorem final (c : Dev nD) :
    (dat1 V c).arrAt 2 cfg1.N = rowsByCols (V c main_arg0) (V c main_v13) :=
  (dat1 V c).arrAt_eq_of_cover 2 (rowsByCols (V c main_arg0) (V c main_v13)) (fun t _ => flushed_eq V c t) cover

end Cert.KernelIdeal.Product

end
-- ==== Proof.LibRowGather.lean ====
/-
  Taking rows of a table by an index column. jnp's `table[idx]` for a table of shape [G, N] and an integer vector
  `idx` of length K lowers to a gather whose start indices are the [K, 1] column of `idx`, with one collapsed axis
  (the rows), one offset axis (the columns) and slices of one whole row. Entry (k, n) of the result is the table at
  row `idx[k]`, read as a signed integer and clamped into [0, G - 1], and column n.
-/
import Idealize.ShloMosaic.PureOps.ShapeOps
import Idealize.ShloMosaic.Lib.ValueIdx

noncomputable section

namespace Cert.LibRowGather

open Idealize.ShloMosaic Idealize.ShloMosaic.ValueIdx

variable {α : Type}

/-- The dimension numbers of a row take: operand [G, N], start indices [K, 1], result [K, N]. -/
abbrev rowDims (G N K : Nat)
    (wf : GatherDims.WF ⟨2, ![G, N]⟩ ⟨2, ![K, 1]⟩ ⟨2, ![K, N]⟩ [1] [0] [] [0] [] 1 ![1, N]) :
    GatherDims ⟨2, ![G, N]⟩ ⟨2, ![K, 1]⟩ ⟨2, ![K, N]⟩ where
  offsetDims := [1]
  collapsedSliceDims := [0]
  operandBatchingDims := []
  startIndicesBatchingDims := []
  startIndexMap := [0]
  indexVectorDim := 1
  sliceSizes := ![1, N]
  wf := wf

/-- Entry (k, n) of the rows taken: the table at the clamped row `idx[k]` and column n. -/
theorem gather_rows_apply {G N K w : Nat} (hG : 0 < G)
    (wf : GatherDims.WF ⟨2, ![G, N]⟩ ⟨2, ![K, 1]⟩ ⟨2, ![K, N]⟩ [1] [0] [] [0] [] 1 ![1, N])
    (x : (⟨2, ![G, N]⟩ : Shape).Idx → α) (idx : IVec ⟨2, ![K, 1]⟩ w) (k : Fin K) (n : Fin N) :
    Host.gather (rowDims G N K wf) x idx (ix2 k n)
      = x (ix2 ⟨min (idx (ix2 k ⟨0, Nat.one_pos⟩)).toInt.toNat (G - 1), by omega⟩ n) := by
  unfold Host.gather
  congr 1
  funext a
  refine Fin.ext ?_
  match a with
  | ⟨0, _⟩ =>
    show (rowDims G N K wf).start (ix2 k n) idx 0 + (rowDims G N K wf).batchCoord (ix2 k n) 0
      + (rowDims G N K wf).offCoord (ix2 k n) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims G N K wf).startIndexMap from List.mem_singleton.mpr rfl)]
    have hsi : (rowDims G N K wf).siIdx (ix2 k n) ⟨List.idxOf (0 : Fin 2) (rowDims G N K wf).startIndexMap,
        List.idxOf_lt_length_iff.2 (List.mem_singleton.mpr rfl)⟩ = ix2 k ⟨0, Nat.one_pos⟩ := by
      funext b; refine Fin.ext ?_
      match b with
      | ⟨0, _⟩ => rfl
      | ⟨1, _⟩ => rfl
    rw [hsi]
    rfl
  | ⟨1, _⟩ =>
    show (rowDims G N K wf).start (ix2 k n) idx 1 + (rowDims G N K wf).batchCoord (ix2 k n) 1
      + (rowDims G N K wf).offCoord (ix2 k n) 1 = n.val
    rw [GatherDims.batchCoord_eq_zero _ _ _ List.not_mem_nil]
    have hst : (rowDims G N K wf).start (ix2 k n) idx 1 = 0 := by
      unfold GatherDims.start
      rw [dif_neg (show ¬ (1 : Fin 2) ∈ (rowDims G N K wf).startIndexMap from
        fun h => Nat.one_ne_zero (congrArg Fin.val (List.mem_singleton.mp h)))]
    rw [hst]
    simp only [Nat.add_zero, Nat.zero_add]
    rfl

end Cert.LibRowGather

end
-- ==== Proof.RefEntry.lean ====
/-
  The reference's dequantized weight at an entry (k, n).

  Its unpacked integer weights are field k % 8 of packed word (k / 8, n) (eight shifts along a new middle axis,
  flattened), its unpacked zero points field n % 8 of packed word (g, n / 8) (eight shifts along a new last axis,
  flattened). A group id is first normalised (32 added when negative) and then used as a start index that the
  gather clamps into [0, 31]; for an id already in [0, 32) both steps leave it as it is. The weight is the integer
  difference of the two fields, converted, times the selected scale.
-/
import proofs.«430666_j3040836846053_2_alg».proof.Proof.Gen.ReferenceIdeal.Read
import proofs.«430666_j3040836846053_2_alg».proof.Proof.LibRowGather
import proofs.«430666_j3040836846053_2_alg».proof.Proof.Fields
import Idealize.ShloMosaic.Lib.ValueIdx

noncomputable section

open scoped BigOperators

namespace Cert.ReferenceIdeal.Entry

open Cert.ReferenceIdeal Cert.ReferenceIdeal.Gen Cert.ReferenceIdeal.Read Cert.Fields
open Idealize.ShloMosaic Idealize.ShloMosaic.ValueIdx

/-- The reference's unpacked weight at (k, n): field k % 8 of packed word (k / 8, n). -/
theorem weight_field (x1 : (⟨S512x4096, .i32⟩ : BufTy).Contents (Elt Ideal)) (k n : Fin 4096) :
    val_main_v10 (F := Ideal) x1 (ix2 k n)
      = field (x1 (ix2 (⟨k.val / 8, by have := k.isLt; omega⟩ : Fin 512) n)) (⟨k.val % 8, by omega⟩ : Fin 8) := by
  have hk := k.isLt
  have hn := n.isLt
  rw [val_main_v10_apply, val_main_v9_apply, val_main_v7_apply, val_main_v5_apply, val_main_v3_apply,
    val_main_v6_apply, val_main_v4_apply, val_main_v2_apply, val_main_v0_apply, val_main_v1_apply, val_main_c_apply,
    val_main_v8_apply, val_main_c_0_apply]
  have e1 : idx_main_v3 (idx_main_v5 (idx_main_v10 (ix2 k n))) = ix2 (⟨k.val / 8, by omega⟩ : Fin 512) n := by
    funext a; refine Fin.ext ?_
    match a with
    | ⟨0, _⟩ => show (k.val * 4096 + n.val) / 32768 = k.val / 8; omega
    | ⟨1, _⟩ => show (k.val * 4096 + n.val) % 4096 = n.val; omega
  have e2 : ((idx_main_v4 (idx_main_v6 (idx_main_v10 (ix2 k n)))) 0).val = (⟨k.val % 8, by omega⟩ : Fin 8).val := by
    show (k.val * 4096 + n.val) / 4096 % 8 = k.val % 8; omega
  rw [e1, e2]
  exact shrsi_field .host _ _

/-- The reference's unpacked zero point at (g, n): field n % 8 of packed word (g, n / 8). -/
theorem zero_field (x2 : (⟨S32x512, .i32⟩ : BufTy).Contents (Elt Ideal)) (g : Fin 32) (n : Fin 4096) :
    val_main_v21 (F := Ideal) x2 (ix2 g n)
      = field (x2 (ix2 g (⟨n.val / 8, by have := n.isLt; omega⟩ : Fin 512))) (⟨n.val % 8, by omega⟩ : Fin 8) := by
  have hg := g.isLt
  have hn := n.isLt
  rw [val_main_v21_apply, val_main_v20_apply, val_main_v18_apply, val_main_v16_apply, val_main_v14_apply,
    val_main_v17_apply, val_main_v15_apply, val_main_v13_apply, val_main_v11_apply, val_main_v12_apply, val_main_c_1_apply,
    val_main_v19_apply, val_main_c_2_apply]
  have e1 : idx_main_v14 (idx_main_v16 (idx_main_v21 (ix2 g n))) = ix2 g (⟨n.val / 8, by omega⟩ : Fin 512) := by
    funext a; refine Fin.ext ?_
    match a with
    | ⟨0, _⟩ => show (g.val * 4096 + n.val) / 4096 = g.val; omega
    | ⟨1, _⟩ => show (g.val * 4096 + n.val) / 8 % 512 = n.val / 8; omega
  have e2 : ((idx_main_v15 (idx_main_v17 (idx_main_v21 (ix2 g n)))) 0).val = (⟨n.val % 8, by omega⟩ : Fin 8).val := by
    show (g.val * 4096 + n.val) % 8 = n.val % 8; omega
  rw [e1, e2]
  exact shrsi_field .host _ _

/-- A group id in [0, 32) survives the reference's two index steps: it is not negative, so nothing is added, and it
    is already inside the clamp's range [0, 31]. -/
theorem id_kept (w : BitVec 32) (h : w.toNat < 32) :
    min (Scalar.select (IntOp.cmpi .slt w 0#32) (IntOp.addi w 32#32) w).toInt.toNat (32 - 1) = w.toNat := by
  have hint : w.toInt = (w.toNat : ℤ) := by
    rw [BitVec.toInt_eq_toNat_cond, if_pos (by omega)]
  have hslt : IntOp.cmpi .slt w 0#32 = 0#1 := by
    show BitVec.ofBool (w.slt 0#32) = 0#1
    have : w.slt 0#32 = false := by
      rw [BitVec.slt, hint]
      simp
    rw [this]; rfl
  rw [hslt, select_zero, hint, Int.toNat_natCast]
  omega

/-- The normalised id of row k, as the gather's start-index column holds it. -/
theorem start_entry (x4 : (⟨S4096, .i32⟩ : BufTy).Contents (Elt Ideal)) (k : Fin 4096) :
    val_main_v27 (F := Ideal) x4 (ix2 k (⟨0, Nat.one_pos⟩ : Fin 1))
      = Scalar.select (IntOp.cmpi .slt (x4 (ix1 k)) 0#32) (IntOp.addi (x4 (ix1 k)) 32#32) (x4 (ix1 k)) := by
  rw [val_main_v27_apply, val_main_v26_apply, val_main_v23_apply, val_main_v25_apply, val_main_v22_apply,
    val_main_c_3_apply, val_main_v24_apply, val_main_c_4_apply]
  have e : idx_main_v27 (ix2 k (⟨0, Nat.one_pos⟩ : Fin 1)) = ix1 k := by
    funext a
    match a with
    | ⟨0, _⟩ => rfl
  rw [e]

/-- The same for the second copy of the normalisation (the scale gather's). -/
theorem start_entry' (x4 : (⟨S4096, .i32⟩ : BufTy).Contents (Elt Ideal)) (k : Fin 4096) :
    val_main_v34 (F := Ideal) x4 (ix2 k (⟨0, Nat.one_pos⟩ : Fin 1))
      = Scalar.select (IntOp.cmpi .slt (x4 (ix1 k)) 0#32) (IntOp.addi (x4 (ix1 k)) 32#32) (x4 (ix1 k)) := by
  rw [val_main_v34_apply, val_main_v33_apply, val_main_v30_apply, val_main_v32_apply, val_main_v29_apply,
    val_main_c_5_apply, val_main_v31_apply, val_main_c_6_apply]
  have e : idx_main_v34 (ix2 k (⟨0, Nat.one_pos⟩ : Fin 1)) = ix1 k := by
    funext a
    match a with
    | ⟨0, _⟩ => rfl
  rw [e]

/-- The zero-point row the reference takes for row k, when the row's id is in range: the id's own row. -/
theorem zero_taken (x2 : (⟨S32x512, .i32⟩ : BufTy).Contents (Elt Ideal)) (x4 : (⟨S4096, .i32⟩ : BufTy).Contents (Elt Ideal))
    (k n : Fin 4096) (h : (x4 (ix1 k)).toNat < 32) :
    val_main_v28 (F := Ideal) x2 x4 (ix2 k n) = val_main_v21 (F := Ideal) x2 (ix2 (⟨(x4 (ix1 k)).toNat, h⟩ : Fin 32) n) := by
  unfold val_main_v28
  rw [show gather_S32x4096_S4096x1_S4096x4096_1_0_n_n_0_1_14096
      = Cert.LibRowGather.rowDims 32 4096 4096 gather_S32x4096_S4096x1_S4096x4096_1_0_n_n_0_1_14096_wf from rfl]
  rw [Cert.LibRowGather.gather_rows_apply (by decide)]
  refine congrArg (val_main_v21 (F := Ideal) x2) (congrArg (fun g => ix2 g n) (Fin.ext ?_))
  show min (val_main_v27 (F := Ideal) x4 (ix2 k (⟨0, Nat.one_pos⟩ : Fin 1))).toInt.toNat (32 - 1) = (x4 (ix1 k)).toNat
  rw [start_entry]
  exact id_kept _ h

/-- The scale row the reference takes for row k, when the row's id is in range. -/
theorem scale_taken (x3 : (⟨S32x4096, .f32⟩ : BufTy).Contents (Elt Ideal)) (x4 : (⟨S4096, .i32⟩ : BufTy).Contents (Elt Ideal))
    (k n : Fin 4096) (h : (x4 (ix1 k)).toNat < 32) :
    val_main_v35 (F := Ideal) x3 x4 (ix2 k n) = x3 (ix2 (⟨(x4 (ix1 k)).toNat, h⟩ : Fin 32) n) := by
  unfold val_main_v35
  rw [show gather_S32x4096_S4096x1_S4096x4096_1_0_n_n_0_1_14096
      = Cert.LibRowGather.rowDims 32 4096 4096 gather_S32x4096_S4096x1_S4096x4096_1_0_n_n_0_1_14096_wf from rfl]
  rw [Cert.LibRowGather.gather_rows_apply (by decide)]
  refine congrArg x3 (congrArg (fun g => ix2 g n) (Fin.ext ?_))
  show min (val_main_v34 (F := Ideal) x4 (ix2 k (⟨0, Nat.one_pos⟩ : Fin 1))).toInt.toNat (32 - 1) = (x4 (ix1 k)).toNat
  rw [start_entry']
  exact id_kept _ h

/-- THE REFERENCE'S WEIGHT at (k, n), for a row whose id g is in range: the weight's field less the zero point's
    field of row g, as real numbers, times the scale of row g. -/
theorem weight_entry (x1 : (⟨S512x4096, .i32⟩ : BufTy).Contents (Elt Ideal)) (x2 : (⟨S32x512, .i32⟩ : BufTy).Contents (Elt Ideal))
    (x3 : (⟨S32x4096, .f32⟩ : BufTy).Contents (Elt Ideal)) (x4 : (⟨S4096, .i32⟩ : BufTy).Contents (Elt Ideal))
    (k n : Fin 4096) (h : (x4 (ix1 k)).toNat < 32) :
    val_main_v38 (F := Ideal) x1 x2 x3 x4 (ix2 k n)
      = (FloatOps.sitofp (F := Ideal) .f32 (field (x1 (ix2 (⟨k.val / 8, by have := k.isLt; omega⟩ : Fin 512) n)) (⟨k.val % 8, by omega⟩ : Fin 8))
          - FloatOps.sitofp (F := Ideal) .f32 (field (x2 (ix2 (⟨(x4 (ix1 k)).toNat, h⟩ : Fin 32) (⟨n.val / 8, by have := n.isLt; omega⟩ : Fin 512))) (⟨n.val % 8, by omega⟩ : Fin 8)))
        * x3 (ix2 (⟨(x4 (ix1 k)).toNat, h⟩ : Fin 32) n) := by
  rw [val_main_v38_apply, val_main_v37_apply, val_main_v36_apply, weight_field, zero_taken x2 x4 k n h, zero_field,
    scale_taken x3 x4 k n h, sitofp_sub_fields]
  rfl

end Cert.ReferenceIdeal.Entry

end
-- ==== Proof.Bridge.lean ====
/-
  The two programs compute one function when every group id is in [0, 32).

  The kernel's weight at (k, n) is (field − Σ_g hot·zero[g, n]) · Σ_g hot·scale[g, n] with the one-hot weights of id
  number k; for an id g in range the two sums are the g-th zero point and the g-th scale. The reference's weight is
  the converted integer difference of the same two fields times the g-th scale, and the converted difference is the
  difference of the converted fields. So the two weight arrays agree entry by entry, and both results are the same
  rows-by-columns product of the activations with that array: the same terms of one finite sum.
-/
import proofs.«430666_j3040836846053_2_alg».proof.Proof.Boundaries
import proofs.«430666_j3040836846053_2_alg».proof.Proof.DequantRegion
import proofs.«430666_j3040836846053_2_alg».proof.Proof.ProductRegion
import proofs.«430666_j3040836846053_2_alg».proof.Proof.RefEntry

set_option maxRecDepth 16384

noncomputable section

open scoped BigOperators

namespace Cert.Bridge

open Cert.Fields
open Idealize.ShloMosaic Idealize.ShloMosaic.TcCoe Idealize.SL.Sem Idealize.ShloMosaic.ValueIdx
open Cert.KernelIdeal.Dequant (weights weightAt weights_apply)
open Cert.KernelIdeal.Product (rowsByCols)

/-- The kernel's weight array (over the converted unpacked zero points and the reshaped ids) is the reference's
    weight stage, when every id is in [0, 32). -/
theorem weights_eq (x1 : IVec Cert.KernelIdeal.S512x4096 32) (x2 : IVec Cert.KernelIdeal.S32x512 32)
    (x3 : FVec Ideal Cert.KernelIdeal.S32x4096 .f32) (x4 : IVec Cert.KernelIdeal.S4096 32)
    (hc : Cert.KernelIdeal.S4096.ShapeCasts Cert.KernelIdeal.S32x1x128)
    (h : ∀ k : Fin 4096, (x4 (ix1 k)).toNat < 32) :
    weights x1 x3 (sitofp (F := Ideal) .f32 (Cert.ReferenceIdeal.Read.val_main_v21 (F := Ideal) x2))
        (shapeCast Cert.KernelIdeal.S32x1x128 x4 hc)
      = Cert.ReferenceIdeal.Read.val_main_v38 (F := Ideal) x1 x2 x3 x4 := by
  funext i
  obtain ⟨k, n, rfl⟩ : ∃ (k n : Fin 4096), i = ix2 k n := ⟨i 0, i 1, eq_ix2 i⟩
  have hk := k.isLt
  rw [weights_apply _ _ _ _ (ix2 k n) k n rfl rfl, Cert.ReferenceIdeal.Entry.weight_entry x1 x2 x3 x4 k n (h k)]
  unfold weightAt
  have hid : shapeCast Cert.KernelIdeal.S32x1x128 x4 hc
        (ix3 (⟨k.val / 128, by omega⟩ : Fin 32) (0 : Fin 1) (⟨k.val % 128, by omega⟩ : Fin 128))
      = BitVec.ofNat 32 (⟨(x4 (ix1 k)).toNat, h k⟩ : Fin 32).val := by
    rw [shapeCast_apply x4 hc _ (ix1 k) (by
      rw [Shape.rowMajor_val_one, Shape.rowMajor_val_three]
      show k.val = (k.val / 128 * 1 + 0) * 128 + k.val % 128
      omega)]
    refine BitVec.eq_of_toNat_eq ?_
    show (x4 (ix1 k)).toNat = (BitVec.ofNat 32 (x4 (ix1 k)).toNat).toNat
    rw [BitVec.toNat_ofNat]
    exact (Nat.mod_eq_of_lt (x4 (ix1 k)).isLt).symm
  rw [hid, hot_sum (⟨(x4 (ix1 k)).toNat, h k⟩ : Fin 32) (fun g => sitofp (F := Ideal) .f32 (Cert.ReferenceIdeal.Read.val_main_v21 (F := Ideal) x2) (ix2 g n)),
    hot_sum (⟨(x4 (ix1 k)).toNat, h k⟩ : Fin 32) (fun g => x3 (ix2 g n))]
  show (_ - FloatOps.sitofp (F := Ideal) .f32 (Cert.ReferenceIdeal.Read.val_main_v21 (F := Ideal) x2 (ix2 (⟨(x4 (ix1 k)).toNat, h k⟩ : Fin 32) n))) * _ = _
  rw [Cert.ReferenceIdeal.Entry.zero_field]

/-- The reference's result is the rows-by-columns product of the activations with its weight stage. -/
theorem reference_result (x0 : FVec Ideal Cert.KernelIdeal.S8192x4096 .f32) (x1 : IVec Cert.KernelIdeal.S512x4096 32)
    (x2 : IVec Cert.KernelIdeal.S32x512 32) (x3 : FVec Ideal Cert.KernelIdeal.S32x4096 .f32) (x4 : IVec Cert.KernelIdeal.S4096 32) :
    Cert.ReferenceIdeal.Read.val_main_v39 (F := Ideal) x0 x1 x2 x3 x4
      = rowsByCols x0 (Cert.ReferenceIdeal.Read.val_main_v38 (F := Ideal) x1 x2 x3 x4) := by
  funext i
  rw [Cert.ReferenceIdeal.Read.val_main_v39_apply]
  unfold rowsByCols
  refine Finset.sum_congr rfl fun k _ => ?_
  have el : Cert.ReferenceIdeal.Read.lidx_main_v39 i k = ix2 (⟨(i 0).val, idx2_lt0 i⟩ : Fin 8192) k := by
    funext a
    match a with
    | ⟨0, _⟩ => rfl
    | ⟨1, _⟩ => rfl
  have er : Cert.ReferenceIdeal.Read.ridx_main_v39 i k = ix2 k (⟨(i 1).val, idx2_lt1 i⟩ : Fin 4096) := by
    funext a
    match a with
    | ⟨0, _⟩ => rfl
    | ⟨1, _⟩ => rfl
  rw [el, er]

section Kernel

open Cert.KernelIdeal Cert.KernelIdeal.Gen

variable (m : (ℓ : Loc nD τ sig) → Buf (Elt Ideal) ℓ) (ρ : Dev nD → PrngReg)

/-- The kernel's result array at the last boundary, when every id is in [0, 32): the rows-by-columns product of the
    launched activations with the reference's weight stage of the launched arguments. -/
theorem kernel_result (c : Dev nD)
    (h : ∀ k : Fin 4096, ((m ((c : Thread nD τ).loc main_arg4) : IVec S4096 32) (ix1 k)).toNat < 32) :
    W3 m ρ c (Proc.devRef .tc main_v14)
      = rowsByCols (m ((c : Thread nD τ).loc main_arg0))
          (Cert.ReferenceIdeal.Read.val_main_v38 (F := Ideal) (m ((c : Thread nD τ).loc main_arg1))
            (m ((c : Thread nD τ).loc main_arg2)) (m ((c : Thread nD τ).loc main_arg3)) (m ((c : Thread nD τ).loc main_arg4))) := by
  rw [Cert.KernelIdeal.Boundaries.last_result, Cert.KernelIdeal.Product.final (V2 m ρ) c,
    Cert.KernelIdeal.Boundaries.second_acts, Cert.KernelIdeal.Boundaries.second_weights,
    Cert.KernelIdeal.Dequant.final (V1 m ρ) c,
    Cert.KernelIdeal.Boundaries.first_packed, Cert.KernelIdeal.Boundaries.first_scales]
  refine congrArg (rowsByCols (m ((c : Thread nD τ).loc main_arg0))) ?_
  have hz := Cert.KernelIdeal.Boundaries.first_zeros m ρ c
  have hi := Cert.KernelIdeal.Boundaries.first_ids m ρ c
  rw [hz, hi]
  exact weights_eq _ _ _ _ _ h

end Kernel

end Cert.Bridge

end
-- ==== Proof.lean ====
/-
  A 4-bit group-quantized linear layer: out = x · W with W[k, n] = (w[k, n] − z[g(k), n]) · s[g(k), n], where w and z
  are 4-bit fields of packed 32-bit words, s a table of scales, and g(k) the group id of row k, assumed in [0, 32)
  (the ids index the 32 rows of the two tables).

  The kernel builds W in a first pass, 128 rows at a time, selecting the zero-point and scale rows by one-hot
  products (Σ_g [g(k) = g] · table[g, n]) and subtracting in floats, and multiplies in a second pass, a 256-row band
  of x against a 2048-column half of W at a time. The reference subtracts the two fields as integers, converts, takes
  the table rows by indexing (a negative id wrapped, then clamped) and multiplies once.

  Over the extended reals: a one-hot sum with its id in range is the selected entry (0 · a = 0 and 1 · a = a, also
  at infinite a, so the tables need not be finite); the integer difference of two fields in [0, 15] does not wrap, so
  converting it is subtracting the converted fields; an id in [0, 32) is unchanged by the reference's wrap and clamp;
  changes of float format are the identity; and both products are the same finite sum Σ_k x[t, k] · W[k, n], term
  by term. The finiteness part of the precondition is never used; the id range is.
-/
import proofs.«430666_j3040836846053_2_alg».proof.Defs
import proofs.«430666_j3040836846053_2_alg».proof.Proof.Gen.Kernel
import proofs.«430666_j3040836846053_2_alg».proof.Proof.Gen.Kernel.Skeleton
import proofs.«430666_j3040836846053_2_alg».proof.Proof.Gen.Kernel.Launch
import proofs.«430666_j3040836846053_2_alg».proof.Proof.Gen.Kernel.Points
import proofs.«430666_j3040836846053_2_alg».proof.Proof.Gen.Kernel.Frame
import proofs.«430666_j3040836846053_2_alg».proof.Proof.Gen.KernelIdeal
import proofs.«430666_j3040836846053_2_alg».proof.Proof.Gen.KernelIdeal.Skeleton
import proofs.«430666_j3040836846053_2_alg».proof.Proof.Gen.KernelIdeal.Launch
import proofs.«430666_j3040836846053_2_alg».proof.Proof.Gen.KernelIdeal.Points
import proofs.«430666_j3040836846053_2_alg».proof.Proof.Gen.KernelIdeal.Frame
import proofs.«430666_j3040836846053_2_alg».proof.Proof.Gen.ReferenceIdeal
import proofs.«430666_j3040836846053_2_alg».proof.Proof.Gen.Pre_finite_inputs
import proofs.«430666_j3040836846053_2_alg».proof.Proof.Gen.ReferenceIdeal.Run
import proofs.«430666_j3040836846053_2_alg».proof.Proof.Gen.ReferenceIdeal.Read
import proofs.«430666_j3040836846053_2_alg».proof.Proof.KernelIdealRun
import proofs.«430666_j3040836846053_2_alg».proof.Proof.IdsInRange
import proofs.«430666_j3040836846053_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as launched: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation. -/
theorem preserves : Cert.preserves_Kernel_KernelIdeal := trivial

/-- Both programs end with the activations' rows times the columns of one weight array: the kernel's two passes by
    what each region leaves, the reference by its last product, the two weight arrays equal because every group
    id is in [0, 32). -/
theorem algebraic : Cert.algebraic_KernelIdeal_ReferenceIdeal := by
  intro m ρ m' ρ' hpre hagree
  have hids : ∀ (c : Dev Cert.KernelIdeal.nD) (k : Fin 4096),
      ((m ((c.tc : Thread Cert.KernelIdeal.nD Cert.KernelIdeal.τ).loc Cert.KernelIdeal.main_arg4) : IVec Cert.KernelIdeal.S4096 32) (ix1 k)).toNat < 32 :=
    fun c k => Cert.IdsInRange.ids_lt _ _ _ _ _ (hpre c) k
  refine ⟨fun c => Cert.KernelIdeal.Product.rowsByCols
      (m ((c.tc : Thread Cert.KernelIdeal.nD Cert.KernelIdeal.τ).loc Cert.KernelIdeal.main_arg0))
      (Cert.ReferenceIdeal.Read.val_main_v38 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))), ?_, ?_⟩
  · exact (θ_run Cert.KernelIdeal.defs _ _).mono
      (fun r h c => ⟨(h c).1.trans (Cert.Bridge.kernel_result m ρ c (hids c)), (h c).2⟩)
      (Cert.KernelIdeal.GenRun.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v39_eq, (hagree c).1, (hagree c).2.1, (hagree c).2.2.1, (hagree c).2.2.2.1,
      (hagree c).2.2.2.2]
    exact Cert.Bridge.reference_result _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
